-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 32000#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S128x32000 : Shape := ⟨2, ![128, 32000]⟩
abbrev S128x1 : Shape := ⟨2, ![128, 1]⟩
abbrev S128 : Shape := ⟨1, ![128]⟩
abbrev S32000 : Shape := ⟨1, ![32000]⟩

abbrev nBuf : Space → Nat
  | .hbm => 51
  | .vmem => 6
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192x1, .f32⟩
  | .hbm, ⟨12, _⟩ => ⟨S8192, .f32⟩
  | .hbm, ⟨13, _⟩ => ⟨S_, .f32⟩
  | .hbm, ⟨14, _⟩ => ⟨S32000, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S_, .f32⟩
  | .hbm, ⟨24, _⟩ => ⟨S8192, .f32⟩
  | .hbm, ⟨25, _⟩ => ⟨S32000, .f32⟩
  | .hbm, ⟨26, _⟩ => ⟨S_, .f32⟩
  | .hbm, ⟨27, _⟩ => ⟨S32000, .f32⟩
  | .hbm, ⟨28, _⟩ => ⟨S32000, .f32⟩
  | .hbm, ⟨29, _⟩ => ⟨S_, .f32⟩
  | .hbm, ⟨30, _⟩ => ⟨S32000, .f32⟩
  | .hbm, ⟨31, _⟩ => ⟨S32000, .f32⟩
  | .hbm, ⟨32, _⟩ => ⟨S_, .f32⟩
  | .hbm, ⟨33, _⟩ => ⟨S_, .f32⟩
  | .hbm, ⟨34, _⟩ => ⟨S32000, .f32⟩
  | .hbm, ⟨35, _⟩ => ⟨S32000, .f32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S128x32000, .f32⟩
  | .local _ .vmem, ⟨1, _⟩ => ⟨S128x32000, .f32⟩
  | .local _ .vmem, ⟨2, _⟩ => ⟨S128x1, .i32⟩
  | .local _ .vmem, ⟨3, _⟩ => ⟨S128x1, .i32⟩
  | .local _ .vmem, ⟨4, _⟩ => ⟨S128x1, .f32⟩
  | .local _ .vmem, ⟨5, _⟩ => ⟨S128x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_7 : Ref sig .tc := ⟨.hbm, 36, rfl⟩
abbrev main_v20 : Ref sig .tc := ⟨.hbm, 37, rfl⟩
abbrev main_v21 : Ref sig .tc := ⟨.hbm, 38, rfl⟩
abbrev main_c_8 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8192 : S_.BroadcastsInDim S8192 (![] : Fin 0 → Fin S8192.rank)
  shapeCasts_S8192_S8192x1 : S8192.ShapeCasts S8192x1
  inb_S128x32000_S128x32000_0_0 : ∀ a, (![0, 0] : Fin 2 → Nat) a + S128x32000.size a ≤ S128x32000.size a
  h_S128x32000 : 0 < S128x32000.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x32000_S128 : S128x32000.Reduces [1] S128
  shapeCasts_S128_S128x1 : S128.ShapeCasts S128x1
  broadcasts_S128x1_S128x32000 : S128x1.Broadcasts S128x32000
  iota_S128x32000_d1_w32 : S128x32000.Iotas .tc 32 [1]
  shapeCasts_S8192x1_S8192 : S8192x1.ShapeCasts S8192
  bcast_S_S32000 : S_.BroadcastsInDim S32000 (![] : Fin 0 → Fin S32000.rank)
  bcast_S8192_S8192x1_0 : S8192.BroadcastsInDim S8192x1 (![0] : Fin 1 → Fin S8192x1.rank)
  reducesTo_S32000_S_d0 : S32000.ReducesTo [0] S_
  h_S_ : 0 < S_.numel
  reducesTo_S8192_S_d0 : S8192.ReducesTo [0] S_
  scatter_S32000_S8192x1_S8192_n_0_0_1_wf : ScatterDims.WF S32000 S8192x1 S8192 [] [0] [0] 1
  gather_S32000_S8192x1_S8192_n_0_n_n_0_1_1_wf : GatherDims.WF S32000 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32000.size a ≤ S8192x32000.size a
  hwx0_0 : ∀ i : grid0.Coords, EltTy.bits .f32 = 32 ∨ (Rect.block (s := S8192x32000) S128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)

variable [Facts₀]

def scatter_S32000_S8192x1_S8192_n_0_0_1 : ScatterDims S32000 S8192x1 S8192 where
  updateWindowDims := []
  insertedWindowDims := [0]
  scatterDimsToOperandDims := [0]
  indexVectorDim := 1
  wf := scatter_S32000_S8192x1_S8192_n_0_0_1_wf
def gather_S32000_S8192x1_S8192_n_0_n_n_0_1_1 : GatherDims S32000 S8192x1 S8192 where
  offsetDims := []
  collapsedSliceDims := [0]
  operandBatchingDims := []
  startIndicesBatchingDims := []
  startIndexMap := [0]
  indexVectorDim := 1
  sliceSizes := ![1]
  wf := gather_S32000_S8192x1_S8192_n_0_n_n_0_1_1_wf

abbrev win0_0 : Pipeline.Window sig grid0 :=
  Pipeline.Window.ofSpec (Memref.whole main_arg0) S128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S32000 : Shape := ⟨1, ![32000]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S_, .f32⟩
  | .hbm, ⟨3, _⟩ => ⟨S32000, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S_, .f32⟩
  | .hbm, ⟨13, _⟩ => ⟨S8192, .f32⟩
  | .hbm, ⟨14, _⟩ => ⟨S32000, .f32⟩
  | .hbm, ⟨15, _⟩ => ⟨S_, .f32⟩
  | .hbm, ⟨16, _⟩ => ⟨S32000, .f32⟩
  | .hbm, ⟨17, _⟩ => ⟨S32000, .f32⟩
  | .hbm, ⟨18, _⟩ => ⟨S_, .f32⟩
  | .hbm, ⟨19, _⟩ => ⟨S32000, .f32⟩
  | .hbm, ⟨20, _⟩ => ⟨S32000, .f32⟩
  | .hbm, ⟨21, _⟩ => ⟨S_, .f32⟩
  | .hbm, ⟨22, _⟩ => ⟨S_, .f32⟩
  | .hbm, ⟨23, _⟩ => ⟨S32000, .f32⟩
  | .hbm, ⟨24, _⟩ => ⟨S32000, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x32000, .f32⟩
  | .hbm, ⟨32, _⟩ => ⟨S8192x32000, .f32⟩
  | .hbm, ⟨33, _⟩ => ⟨S8192x32000, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1, .f32⟩
  | .hbm, ⟨38, _⟩ => ⟨S8192x32000, .f32⟩
  | .hbm, ⟨39, _⟩ => ⟨S8192x32000, .f32⟩
  | .hbm, ⟨40, _⟩ => ⟨S8192x1, .i32⟩
  | .hbm, ⟨41, _⟩ => ⟨S_, .i32⟩
  | .hbm, ⟨42, _⟩ => ⟨S8192x1, .i32⟩
  | .hbm, ⟨43, _⟩ => ⟨S8192x1, .i1⟩
  | .hbm, ⟨44, _⟩ => ⟨S_, .i32⟩
  | .hbm, ⟨45, _⟩ => ⟨S8192x1, .i32⟩
  | .hbm, ⟨46, _⟩ => ⟨S8192x1, .i32⟩
  | .hbm, ⟨47, _⟩ => ⟨S8192x1, .i32⟩
  | .hbm, ⟨48, _⟩ => ⟨S8192x1x1, .i32⟩
  | .hbm, ⟨49, _⟩ => ⟨S1, .i32⟩
  | .hbm, ⟨50, _⟩ => ⟨S_, .i32⟩
  | .hbm, ⟨51, _⟩ => ⟨S8192x1x1, .i32⟩
  | .hbm, ⟨52, _⟩ => ⟨S8192x1x1, .i1⟩
  | .hbm, ⟨53, _⟩ => ⟨S1x1x1, .i32⟩
  | .hbm, ⟨54, _⟩ => ⟨S8192x1x1, .i32⟩
  | .hbm, ⟨55, _⟩ => ⟨S8192x1x1, .i1⟩
  | .hbm, ⟨56, _⟩ => ⟨S8192x1x1, .i1⟩
  | .hbm, ⟨57, _⟩ => ⟨S_, .i1⟩
  | .hbm, ⟨58, _⟩ => ⟨S8192x1, .i1⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192, .f32⟩
  | .hbm, ⟨64, _⟩ => ⟨S_, .i32⟩
  | .hbm, ⟨65, _⟩ => ⟨S8192, .i32⟩
  | .hbm, ⟨66, _⟩ => ⟨S8192, .i1⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S8192, .i32⟩
  | .hbm, ⟨71, _⟩ => ⟨S8192x1, .i32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v16 : Ref sig .tc := ⟨.hbm, 39, rfl⟩
abbrev main_v17 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v18 : Ref sig .tc := ⟨.hbm, 62, rfl⟩
abbrev main_v19 : Ref sig .tc := ⟨.hbm, 63, rfl⟩
abbrev main_c_5 : Ref sig .tc := ⟨.hbm, 64, rfl⟩
abbrev main_v20 : Ref sig .tc := ⟨.hbm, 65, rfl⟩
abbrev main_v21 : Ref sig .tc := ⟨.hbm, 66, rfl⟩
abbrev main_c_6 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_cst_7 : Ref sig .tc := ⟨.hbm, 74, rfl⟩
abbrev main_v28 : Ref sig .tc := ⟨.hbm, 75, rfl⟩
abbrev main_cst_8 : Ref sig .tc := ⟨.hbm, 76, rfl⟩
abbrev main_v29 : Ref sig .tc := ⟨.hbm, 77, rfl⟩
abbrev main_v30 : Ref sig .tc := ⟨.hbm, 78, rfl⟩

abbrev nD : Nat := 1
abbrev τ : Topo := Topo.v7x

variable {F : FTy → Type} [FloatOps F]

class Facts₀ : Prop where
  bcast_S_S32000 : S_.BroadcastsInDim S32000 (![] : Fin 0 → Fin S32000.rank)
  bcast_S_S8192 : S_.BroadcastsInDim S8192 (![] : Fin 0 → Fin S8192.rank)
  bcast_S8192_S8192x1_0 : S8192.BroadcastsInDim S8192x1 (![0] : Fin 1 → Fin S8192x1.rank)
  reducesTo_S32000_S_d0 : S32000.ReducesTo [0] S_
  h_S_ : 0 < S_.numel
  reducesTo_S8192x32000_S8192_d1 : S8192x32000.ReducesTo [1] S8192
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  scatter_S32000_S8192x1_S8192_n_0_0_1_wf : ScatterDims.WF S32000 S8192x1 S8192 [] [0] [0] 1
  gather_S8192x32000_S8192x1x1_S8192x1_n_1_0_0_1_2_11_wf : GatherDims.WF S8192x32000 S8192x1x1 S8192x1 [] [1] [0] [1] [0] 2 ![1, 1]
  gather_S32000_S8192x1_S8192_n_0_n_n_0_1_1_wf : GatherDims.WF S32000 S8192x1 S8192 [] [0] [] [0] [] 1 ![1]

variable [Facts₀]

def scatter_S32000_S8192x1_S8192_n_0_0_1 : ScatterDims S32000 S8192x1 S8192 where
  updateWindowDims := []
  insertedWindowDims := [0]
  scatterDimsToOperandDims := [0]
  indexVectorDim := 1
  wf := scatter_S32000_S8192x1_S8192_n_0_0_1_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf
def gather_S32000_S8192x1_S8192_n_0_n_n_0_1_1 : GatherDims S32000 S8192x1 S8192 where
  offsetDims := []
  collapsedSliceDims := [0]
  operandBatchingDims := []
  startIndicesBatchingDims := []
  startIndexMap := [0]
  indexVectorDim := 1
  sliceSizes := ![1]
  wf := gather_S32000_S8192x1_S8192_n_0_n_n_0_1_1_wf

class Facts : Prop extends Facts₀ where

variable [Facts]
-- ==== Proof.RowLaw.lean ====
/-
  One row of the loss: the log-probability of the target class under a row's log-softmax, as ONE function of the
  row over the extended reals, and the small facts on 32-bit words that say a class label in range is its own
  clamp, its own wrapped index and the position at which a compare-and-select sum picks its one entry.

  For a row `x : Fin 32000 → EReal` with largest entry `M` (the fold of `max` from -∞) the entry `j` of the
  row's log-softmax is `(x j - M) - log (∑ k, exp (x k - M))`. One side reaches `x j - M` by summing the row of
  differences masked to the single column whose number equals the label; the other by reading column `j`
  directly. A sum whose terms vanish off one index is the term at that index, whatever that term is, so no
  finiteness of the entries is needed for this step.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.Rows

open Idealize.ShloMosaic Idealize.ShloMosaic.ValueIdx

/-! ## Words: a label inside `[0, 32000)` -/

/-- A 32-bit word that is signed-nonnegative and signed-below 32000 has its unsigned value below 32000. -/
theorem toNat_lt_of_range (w : BitVec 32) (h0 : IntOp.cmpi .sge w 0#32 = 1#1) (h1 : IntOp.cmpi .slt w 32000#32 = 1#1) :
    w.toNat < 32000 := by
  have a : (0#32).sle w = true := (StableHlo.Predicate.ofBool_eq_one_iff _).1 h0
  have b : w.slt 32000#32 = true := (StableHlo.Predicate.ofBool_eq_one_iff _).1 h1
  simp only [BitVec.sle, BitVec.slt, decide_eq_true_eq] at a b
  have e0 : (0#32 : BitVec 32).toInt = 0 := by decide
  have e1 : (32000#32 : BitVec 32).toInt = 32000 := by decide
  rw [e0] at a; rw [e1] at b
  have hc := BitVec.toInt_eq_toNat_cond w
  have hl := w.isLt
  by_cases hm : 2 * w.toNat < 2 ^ 32
  · rw [if_pos hm] at hc; omega
  · rw [if_neg hm] at hc; omega

/-- Two words below 2³¹ compare signed as their unsigned values do: not below, -/
theorem slt_false {a b : BitVec 32} (ha : a.toNat < 2 ^ 31) (hb : b.toNat < 2 ^ 31) (h : b.toNat ≤ a.toNat) :
    a.slt b = false := by
  rw [Bool.eq_false_iff]; intro hs
  have := (StableHlo.Predicate.slt_bool_iff_toNat ha hb).1 (by rw [hs]; rfl)
  omega

/-- and at most. -/
theorem sle_true {a b : BitVec 32} (ha : a.toNat < 2 ^ 31) (hb : b.toNat < 2 ^ 31) (h : a.toNat ≤ b.toNat) :
    a.sle b = true :=
  (StableHlo.Predicate.ofBool_eq_one_iff _).1 ((StableHlo.Predicate.sle_bool_iff_toNat ha hb).2 h)

/-- A word below 32000 is not signed-negative … -/
theorem not_slt_zero (w : BitVec 32) (hw : w.toNat < 32000) : IntOp.cmpi .slt w 0#32 = 0#1 := by
  have : w.slt 0#32 = false := slt_false (by omega) (by decide) (Nat.zero_le _)
  show BitVec.ofBool (w.slt 0#32) = 0#1
  rw [this]; rfl

/-- … so the wrap of a negative index (add the extent when negative) leaves it alone, -/
theorem wrap_eq (w : BitVec 32) (hw : w.toNat < 32000) :
    Scalar.select (IntOp.cmpi .slt w 0#32) (IntOp.addi w 32000#32) w = w := by
  rw [not_slt_zero w hw, select_zero]

/-- the clamp into `[0, 31999]` leaves it alone, -/
theorem clamp_eq (w : BitVec 32) (hw : w.toNat < 32000) : IntOp.minsi 31999#32 (IntOp.maxsi 0#32 w) = w := by
  have h1 : IntOp.maxsi 0#32 w = w := by
    unfold IntOp.maxsi
    rw [slt_false (a := w) (b := 0#32) (by omega) (by decide) (Nat.zero_le _)]; rfl
  rw [h1]
  unfold IntOp.minsi
  have e : (31999#32 : BitVec 32).toNat = 31999 := rfl
  rw [slt_false (a := 31999#32) (b := w) (by decide) (by omega) (by rw [e]; omega)]; rfl

/-- the in-range test (at least 0 and at most 31999) is set, -/
theorem inrange_eq_one (w : BitVec 32) (hw : w.toNat < 32000) :
    IntOp.andi (IntOp.cmpi .sge w 0#32) (IntOp.cmpi .sle w 31999#32) = 1#1 := by
  have e : (31999#32 : BitVec 32).toNat = 31999 := rfl
  have a : (0#32).sle w = true := sle_true (by decide) (by omega) (Nat.zero_le _)
  have b : w.sle 31999#32 = true := sle_true (by omega) (by decide) (by rw [e]; omega)
  show BitVec.ofBool ((0#32).sle w) &&& BitVec.ofBool (w.sle 31999#32) = 1#1
  rw [a, b]; rfl

/-- and, read signed and clamped to the last column, it is its unsigned value. -/
theorem clampNat_eq (w : BitVec 32) (hw : w.toNat < 32000) : min w.toInt.toNat (32000 - 1) = w.toNat := by
  have : w.toInt = (w.toNat : Int) := StableHlo.Predicate.toInt_eq_toNat_of_lt (by omega)
  rw [this, Int.toNat_natCast]; omega

/-! ## A masked sum picks one entry -/

/-- The sum over the columns of `y k` where column `k`'s number is the label and `0` elsewhere is `y` at the label. -/
theorem sum_pick (y : Fin 32000 → EReal) (w : BitVec 32) (hw : w.toNat < 32000) :
    ∑ k : Fin 32000, Scalar.select (IntOp.cmpi .eq (BitVec.ofNat 32 k.val) w) (y k) (0 : EReal) = y ⟨w.toNat, hw⟩ := by
  rw [Finset.sum_eq_single (⟨w.toNat, hw⟩ : Fin 32000)]
  · have h : IntOp.cmpi .eq (BitVec.ofNat 32 w.toNat) w = 1#1 :=
      StableHlo.Predicate.cmpi_eq_iff.2 (BitVec.eq_of_toNat_eq (by rw [BitVec.toNat_ofNat]; exact Nat.mod_eq_of_lt w.isLt))
    show Scalar.select (IntOp.cmpi .eq (BitVec.ofNat 32 w.toNat) w) _ _ = _
    rw [h, select_one]
  · intro k _ hk
    have hne : ¬ IntOp.cmpi .eq (BitVec.ofNat 32 k.val) w = 1#1 := fun h => hk (Fin.ext (by
      have e := StableHlo.Predicate.cmpi_eq_iff.1 h
      have hk' : k.val < 32000 := k.isLt
      show k.val = w.toNat
      rw [← e, BitVec.toNat_ofNat]; omega))
    rw [eq_zero_of_ne_one hne, select_zero]
  · intro h; exact absurd (Finset.mem_univ _) h

/-! ## The row's function -/

/-- The largest entry of a row: the fold of `max` over its columns from the word of -∞. -/
def rowMax (x : Fin 32000 → EReal) : EReal :=
  (Finset.univ : Finset (Fin 32000)).fold max (Ideal.ofBits .f32 0xFF800000#32) x

/-- Entry `j` of the row's log-softmax: the shifted entry less the log of the sum of the shifted exponentials. -/
def logp (x : Fin 32000 → EReal) (j : Fin 32000) : EReal :=
  (x j - rowMax x) - Ideal.log (∑ k : Fin 32000, Ideal.exp (x k - rowMax x))

/-- The word of -∞ is the least extended real, so taking `max` with it changes nothing. -/
theorem ofBits_neg_inf : Ideal.ofBits .f32 0xFF800000#32 = (⊥ : EReal) := by
  simp [Ideal.ofBits, Ideal.ieee]

theorem max_neg_inf (a : EReal) : max (Ideal.ofBits .f32 0xFF800000#32) a = a := by
  rw [ofBits_neg_inf]; exact max_eq_right bot_le

/-- The per-row log-probabilities of the labels, as one vector over the 8192 rows: row `r` is `logp` of row `r` of
    the logits at label `r`. -/
def lp (a0 : (⟨2, ![8192, 32000]⟩ : Shape).Idx → EReal) (a1 : (⟨1, ![8192]⟩ : Shape).Idx → BitVec 32)
    (hr : ∀ i, (a1 i).toNat < 32000) : (⟨1, ![8192]⟩ : Shape).Idx → EReal :=
  fun i => logp (fun k => a0 (ix2 (⟨(i 0).val, (i 0).isLt⟩ : Fin 8192) k)) ⟨(a1 i).toNat, hr i⟩

/-- `logp` depends on the row and on the label's number only. -/
theorem logp_congr {x x' : Fin 32000 → EReal} {j j' : Fin 32000} (hx : x = x') (hj : j.val = j'.val) :
    logp x j = logp x' j' := by
  subst hx; rw [Fin.ext hj]

end Cert.Rows

end
-- ==== Proof.PreRange.lean ====
/-
  What the precondition says of the labels: every label is a class number, at least 0 and below 32000.

  The printed precondition is the conjunction of three `all`-reductions: every logit's absolute value is below +∞,
  every label is at least 0, every label is below 32000. From its being all ones the last two give, label by label, the two
  signed comparisons, and a word that is signed-nonnegative and signed-below 32000 has unsigned value below 32000.
-/
import proofs.«422978_j42253888258851_2_alg».proof.Proof.Gen.Pre_finite_inputs
import proofs.«422978_j42253888258851_2_alg».proof.Proof.RowLaw
import Idealize.ShloMosaic.Lib.ReduceAll
import Idealize.ShloMosaic.Lib.ValueIdx

noncomputable section

namespace Cert.PreRange

open Idealize.ShloMosaic Idealize.ShloMosaic.ValueIdx

instance : Subsingleton Cert.Pre_finite_inputs.S_.Idx := ⟨fun _ _ => funext fun d => d.elim0⟩

variable {F : FTy → Type} [FloatOps F] [Cert.Pre_finite_inputs.Facts]

/-- Under the precondition every label, as an unsigned number, is below 32000. -/
theorem label_lt (a0 : FVec F Cert.Pre_finite_inputs.S8192x32000 .f32) (a1 : IVec Cert.Pre_finite_inputs.S8192 32)
    (h : Cert.Pre_finite_inputs.fn (F := F) a0 a1 = fun _ => 1#1) (i : Cert.Pre_finite_inputs.S8192.Idx) :
    (a1 i).toNat < 32000 := by
  have h0 := congrFun h ix0
  unfold Cert.Pre_finite_inputs.fn at h0
  dsimp only at h0
  change IntOp.andi (IntOp.andi _ _) _ = 1#1 at h0
  obtain ⟨h12, h3⟩ := IntOp.andi_eq_one.1 h0
  obtain ⟨_, h2⟩ := IntOp.andi_eq_one.1 h12
  have g0 := Host.reduce_andi_all _ _ _ _ _ h2 i
  have g1 := Host.reduce_andi_all _ _ _ _ _ h3 i
  exact Cert.Rows.toNat_lt_of_range (a1 i) g0 g1

end Cert.PreRange

end
-- ==== Proof.KernelRow.lean ====
/-
  The kernel body's stored value at one row of its block.
-/
import proofs.«422978_j42253888258851_2_alg».proof.Proof.Gen.KernelIdeal.Skeleton
import proofs.«422978_j42253888258851_2_alg».proof.Proof.RowLaw
import Idealize.ShloMosaic.Lib.ValueIdx
import Idealize.ShloMosaic.Lib.Pipeline.Value
import Idealize.ShloMosaic.PureOps.Ideal.Laws

noncomputable section

open scoped BigOperators

namespace Cert.KernelRow

open Cert.KernelIdeal Cert.KernelIdeal.Gen Idealize.ShloMosaic Idealize.ShloMosaic.TcCoe Idealize.ShloMosaic.ValueIdx

/-- A vector of 128 row values viewed as a [128, 1] column reads row `p` at `(p, 0)`. -/
theorem col_apply {α : Type} (v : S128.Idx → α) (h : S128.ShapeCasts S128x1) (p : Fin 128) :
    shapeCast S128x1 v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A [128, 1] column spread over the 32000 columns reads row `p`'s value at every `(p, k)`. -/
theorem bcol_apply {α : Type} (v : S128x1.Idx → α) (h : S128x1.Broadcasts S128x32000) (p : Fin 128) (k : Fin 32000) :
    broadcastTo S128x32000 v h (ix2 p k) = v (ix2 p (0 : Fin 1)) :=
  broadcastTo_apply v h (ix2 p k) (ix2 p (0 : Fin 1)) (fun a => by
    match a with
    | ⟨0, _⟩ => show p.val = if (128 : Nat) = 1 then 0 else p.val; rw [if_neg (by decide)]
    | ⟨1, _⟩ => show 0 = if (1 : Nat) = 1 then 0 else k.val; rw [if_pos rfl])

/-- The sum over the lanes of a [128, 32000] block, at row `p`: the sum over the columns of that row. -/
theorem rowsum_apply (v : FVec Ideal S128x32000 .f32) (h : S128x32000.Reduces [1] S128) (hφ : FKind.Formats .f32)
    (hacc : (0x00000000#32 : BitVec 32) = 0x00000000#32) (p : Fin 128) :
    multiReduction .add [1] S128 v 0x00000000#32 h hφ hacc (ix1 p) = ∑ k : Fin 32000, v (ix2 p k) :=
  (Ideal.multiReduction_add_single v 0x00000000#32 h hφ hacc (ix1 p)).trans
    (Finset.sum_congr rfl fun k _ => congrArg v (funext fun a => Fin.ext (by match a with | ⟨0, _⟩ => rfl | ⟨1, _⟩ => rfl)))

/-- The maximum over the lanes, at row `p`: the fold of `max` over the columns of that row from the word of -∞. -/
theorem rowmax_apply (v : FVec Ideal S128x32000 .f32) (h : S128x32000.Reduces [1] S128) (hφ : FKind.Formats .f32)
    (hacc : (0xFF800000#32 : BitVec 32) = 0xFF800000#32) (p : Fin 128) :
    multiReduction .maximumf [1] S128 v 0xFF800000#32 h hφ hacc (ix1 p) = Cert.Rows.rowMax (fun k => v (ix2 p k)) :=
  (Ideal.multiReduction_maximumf_single v 0xFF800000#32 h hφ hacc (ix1 p)).trans
    (congrArg (Finset.fold max (Ideal.ofBits .f32 0xFF800000#32) · (Finset.univ : Finset (Fin 32000)))
      (funext fun k => congrArg v (funext fun a => Fin.ext (by match a with | ⟨0, _⟩ => rfl | ⟨1, _⟩ => rfl))))

/-- The column counter reads the column's number. -/
theorem lane_apply (h : S128x32000.Iotas .tc 32 [1]) (p : Fin 128) (k : Fin 32000) :
    iota .tc S128x32000 32 [1] h (ix2 p k) = BitVec.ofNat 32 k.val :=
  iota_single_apply .tc S128x32000 32 1 h (ix2 p k)

theorem log_apply' (v : FVec Ideal S128x1 .f32) (i : S128x1.Idx) : log v i = Ideal.log (v i) := rfl

theorem cmpi_apply' (q : CmpIPredicate) (a b : IVec S128x32000 32) (i : S128x32000.Idx) : cmpi q a b i = IntOp.cmpi q (a i) (b i) := rfl
theorem exp_apply' (v : FVec Ideal S128x32000 .f32) (i : S128x32000.Idx) : exp v i = Ideal.exp (v i) := rfl

/-- THE STORED VALUE AT ROW `p` of a block: the row's log-softmax at the row's label. The body subtracts the row's largest
    entry `M`, sums the differences masked to the column whose number is the label (which picks `x p label - M`), and
    subtracts the log of the sum of the exponentials of the differences. -/
theorem pay_apply (x0 : FVec Ideal S128x32000 .f32) (x1 : IVec S128x1 32) (p : Fin 128) (hw : (x1 (ix2 p (0 : Fin 1))).toNat < 32000) :
    k0_pay1 (F := Ideal) x0 x1 (ix2 p (0 : Fin 1)) = Cert.Rows.logp (fun k => x0 (ix2 p k)) ⟨(x1 (ix2 p (0 : Fin 1))).toNat, hw⟩ := by
  unfold k0_pay1
  simp only [subf_apply, col_apply, shapeCast_self, log_apply']
  rw [rowsum_apply, rowsum_apply]
  simp only [select_apply, cmpi_apply', lane_apply, bcol_apply, subf_apply, exp_apply', broadcast_apply, col_apply]
  rw [rowmax_apply]
  simp only [Ideal.ofBits_def, Ideal.ofBits_zero_f32]
  have hs : ∑ k : Fin 32000, Scalar.select (IntOp.cmpi .eq (iota .tc S128x32000 32 [1] iota_S128x32000_d1_w32 (ix2 p k)) (x1 (ix2 p (0 : Fin 1))))
        (x0 (ix2 p k) - Cert.Rows.rowMax fun k => x0 (ix2 p k)) (0 : EReal)
      = x0 (ix2 p ⟨(x1 (ix2 p (0 : Fin 1))).toNat, hw⟩) - Cert.Rows.rowMax fun k => x0 (ix2 p k) := by
    rw [← Cert.Rows.sum_pick (fun k => x0 (ix2 p k) - Cert.Rows.rowMax fun k => x0 (ix2 p k)) _ hw]
    exact Finset.sum_congr rfl fun k _ => by rw [lane_apply]
  rw [hs]
  rfl

end Cert.KernelRow

end
-- ==== Proof.KernelArr.lean ====
/-
  What the kernel's output array holds after the run: row by row, the row's log-softmax at the row's label.
-/
import proofs.«422978_j42253888258851_2_alg».proof.Proof.Gen.KernelIdeal.Frame
import proofs.«422978_j42253888258851_2_alg».proof.Proof.KernelRow
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelArr

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Over the 64 grid points: every window's block index is (the point's number, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The row of an index of the [8192, 1] output. -/
abbrev rowOf (i : S8192x1.Idx) : Fin 8192 := ⟨(i 0).val, (i 0).isLt⟩

/-- THE OUTPUT ARRAY as one function of the logits and of the labels laid out as a column: at row `r` the
    log-softmax of row `r` of the logits at that row's label. -/
def outG (a0 : S8192x32000.Idx → EReal) (a1 : S8192x1.Idx → BitVec 32) (hr : ∀ i, (a1 i).toNat < 32000) :
    S8192x1.Idx → EReal :=
  fun i => Cert.Rows.logp (fun k => a0 (ix2 (rowOf i) k)) ⟨(a1 (ix2 (rowOf i) (0 : Fin 1))).toNat, hr _⟩

/-- WHAT POINT `t` WRITES BACK is block `t` of that function of the arrays as the region finds them. -/
theorem flushed_eq (c : Dev nD) (hr : ∀ i, ((V m c main_v1 : S8192x1.Idx → BitVec 32) i).toNat < 32000) (t : Fin cfg0.N) :
    (dats m 0 c).flushed 2 t = ((cfg0.win 2).blk t).view.read (Elt Ideal) (outG (V m c main_arg0) (V m c main_v1) hr) := by
  show (cfg0.win 2).cut (grid0.coords t) ((dats m 0 c).after 2 t) = _
  rw [after0_2]
  unfold out0_2
  rw [View.canon_unit_zero hz]
  simp only [View.ld_unit_zero (S := S128x32000) hz, View.ld_unit_zero (S := S128x1) hz]
  obtain ⟨e0, e1, e2, e3, e4, e5⟩ := idx_facts t
  funext j
  obtain ⟨p, q, rfl⟩ : ∃ (p : Fin 128) (q : Fin 1), j = ix2 p q := ⟨j 0, j 1, eq_ix2 j⟩
  obtain rfl : q = 0 := Subsingleton.elim _ _
  show k0_pay1 (F := Ideal) (iblk m c 0 t) (iblk m c 1 t) (ix2 p (0 : Fin 1))
    = outG (V m c main_arg0) (V m c main_v1) hr (((cfg0.win 2).blk t).view.emb (ix2 p (0 : Fin 1)))
  refine (Cert.KernelRow.pay_apply (iblk m c 0 t) (iblk m c 1 t) p ?_).trans ?_
  · show ((V m c main_v1 : S8192x1.Idx → BitVec 32) (((cfg0.win 1).blk t).view.emb (ix2 p (0 : Fin 1)))).toNat < 32000
    exact hr _
  · unfold outG
    refine Cert.Rows.logp_congr (funext fun k => ?_) ?_
    · show (V m c main_arg0 : S8192x32000.Idx → EReal) (((cfg0.win 0).blk t).view.emb (ix2 p k)) = _
      refine congrArg (V m c main_arg0 : S8192x32000.Idx → EReal) (funext fun a => Fin.ext ?_)
      match a with
      | ⟨0, _⟩ => show win0_0.index t (0 : Fin 2) * 128 + 1 * p.val = win0_2.index t (0 : Fin 2) * 128 + 1 * p.val; omega
      | ⟨1, _⟩ => show win0_0.index t (1 : Fin 2) * 32000 + 1 * k.val = k.val; omega
    · show ((V m c main_v1 : S8192x1.Idx → BitVec 32) (((cfg0.win 1).blk t).view.emb (ix2 p (0 : Fin 1)))).toNat = _
      refine congrArg BitVec.toNat (congrArg (V m c main_v1 : S8192x1.Idx → BitVec 32) (funext fun a => Fin.ext ?_))
      match a with
      | ⟨0, _⟩ => show win0_1.index t (0 : Fin 2) * 128 + 1 * p.val = win0_2.index t (0 : Fin 2) * 128 + 1 * p.val; omega
      | ⟨1, _⟩ => show win0_1.index t (1 : Fin 2) * 1 + 1 * 0 = 0; omega

/-- An index of the output array is in point `t`'s block iff each coordinate is in the block's range on its axis. -/
theorem mem_blk (t : Fin cfg0.N) (i : S8192x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v2).slice (win0_2.rect t)).set ↔ _
  rw [View.set_slice_whole, Rect.mem_set_unit]
  exact Iff.rfl

/-- Every row is in the block of the point that is its number divided by 128. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  refine ⟨⟨(i 0).val / 128, by rw [show cfg0.N = 64 from N_0]; omega⟩, flush0_2 _, ?_⟩
  rw [mem_blk]
  obtain ⟨-, -, -, -, e4, e5⟩ := idx_facts ⟨(i 0).val / 128, by rw [show cfg0.N = 64 from N_0]; omega⟩
  intro a
  match a with
  | ⟨0, _⟩ =>
    show win0_2.index _ (0 : Fin 2) * 128 ≤ (i 0).val ∧ (i 0).val < win0_2.index _ (0 : Fin 2) * 128 + 128
    rw [e4]; show (i 0).val / 128 * 128 ≤ (i 0).val ∧ (i 0).val < (i 0).val / 128 * 128 + 128; omega
  | ⟨1, _⟩ =>
    show win0_2.index _ (1 : Fin 2) * 1 ≤ (i 1).val ∧ (i 1).val < win0_2.index _ (1 : Fin 2) * 1 + 1
    rw [e5]; omega

/-- THE ARRAY after the run is that function of the arrays as the region finds them. -/
theorem final2 (c : Dev nD) (hr : ∀ i, ((V m c main_v1 : S8192x1.Idx → BitVec 32) i).toNat < 32000) :
    (dats m 0 c).arrAt 2 cfg0.N = outG (V m c main_arg0) (V m c main_v1) hr :=
  (dats m 0 c).arrAt_eq_of_cover 2 (outG (V m c main_arg0) (V m c main_v1) hr) (fun t _ => flushed_eq m c hr t) cover

end Cert.KernelArr

end
-- ==== Proof.KernelPre.lean ====
/-
  What the region and its tail find in the label buffers: the labels clamped into `[0, 31999]`, as a vector for the
  tail and as a column for the kernel's second window; and, for labels that are class numbers, the labels themselves.
-/
import proofs.«422978_j42253888258851_2_alg».proof.Proof.Gen.KernelIdeal.Frame
import proofs.«422978_j42253888258851_2_alg».proof.Proof.KernelArr
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelPre

open Cert.KernelIdeal Cert.KernelIdeal.Gen Cert.KernelArr

variable {F : FTy → Type} [FloatOps F]
variable (m : (ℓ : Loc nD τ sig) → Buf (Elt F) ℓ)

/-- The labels as launched. -/
abbrev labels (c : Dev nD) : S8192.Idx → BitVec 32 := m ((c.tc : Thread nD τ).loc main_arg1)

/-- The clamped labels the region's tail reads, entry by entry. -/
theorem V0_v0_apply (c : Dev nD) (i : S8192.Idx) :
    (V0 m c (Proc.devRef .tc main_v0) : S8192.Idx → BitVec 32) i = IntOp.minsi 31999#32 (IntOp.maxsi 0#32 (labels m c i)) := by
  have e : (V0 m c (Proc.devRef .tc main_v0) : S8192.Idx → BitVec 32)
      = fun i => IntOp.minsi 31999#32 (IntOp.maxsi 0#32 (labels m c i)) := by
    dsimp only [V0]
    simp only [hostOps0, hostOps0_1, hostOps0_2, List.flatten_cons, List.flatten_nil, List.append_nil, List.cons_append, List.nil_append]
    after_results
    rfl
  rw [e]

/-- The column of clamped labels the region's second window stages, entry by entry. -/
theorem V_v1_apply (c : Dev nD) (i : S8192x1.Idx) :
    (V m c main_v1 : S8192x1.Idx → BitVec 32) i = IntOp.minsi 31999#32 (IntOp.maxsi 0#32 (labels m c (ix1 (rowOf i)))) := by
  have e : (V m c main_v1 : S8192x1.Idx → BitVec 32)
      = shapeCast S8192x1 (fun i : S8192.Idx => IntOp.minsi 31999#32 (IntOp.maxsi 0#32 (labels m c i))) shapeCasts_S8192_S8192x1 := by
    dsimp only [V, V0]
    simp only [hostOps0, hostOps0_1, hostOps0_2, List.flatten_cons, List.flatten_nil, List.append_nil, List.cons_append, List.nil_append]
    after_results
    rfl
  rw [e]
  exact shapeCast_apply _ _ i (ix1 (rowOf i)) (by
    rw [Shape.rowMajor_val_one, Shape.rowMajor_val_two]
    show (i 0).val = (i 0).val * 1 + (i 1).val
    have h1 : (i 1).val < 1 := (i 1).isLt
    omega)

/-- With every label inside `[0, 32000)` the clamp does nothing: the tail reads the labels themselves, -/
theorem V0_v0_eq (c : Dev nD) (hr : ∀ i, (labels m c i).toNat < 32000) :
    (V0 m c (Proc.devRef .tc main_v0) : S8192.Idx → BitVec 32) = labels m c :=
  funext fun i => (V0_v0_apply m c i).trans (Cert.Rows.clamp_eq _ (hr i))

/-- and the staged column holds row `r`'s label at `(r, 0)`. -/
theorem V_v1_eq (c : Dev nD) (hr : ∀ i, (labels m c i).toNat < 32000) (i : S8192x1.Idx) :
    (V m c main_v1 : S8192x1.Idx → BitVec 32) i = labels m c (ix1 (rowOf i)) :=
  (V_v1_apply m c i).trans (Cert.Rows.clamp_eq _ (hr _))

end Cert.KernelPre

end
-- ==== Proof.Tail.lean ====
/-
  The loss as one function of the class labels and of the per-row log-probabilities of the target class.

  Both programs end the same way: the labels are counted per class (a scatter-add of ones), the counts are turned
  into mitigation weights `(count + eps)^(-0.8)` normalised by their largest, each row's weight is gathered at its
  label, multiplied with the row's log-probability of the label, and the negated mean over the rows is the loss.
  That tail is the same operations in the same order on both sides, so it is carried as ONE opaque function
  `lossOf labels logp` and never opened: the two programs are compared on its two arguments only.
-/
import proofs.«422978_j42253888258851_2_alg».proof.Proof.RefRead

noncomputable section

namespace Cert.Loss

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-- The weighted, negated mean: `-(∑ r, weight(labels)[labels r] · logp r) / 8192`, the weights a function of the
    labels alone (the stage the reference calls its gathered mitigation factor). -/
def lossOf (t : (⟨S8192, .i32⟩ : BufTy).Contents (Elt F)) (lp : (⟨S8192, .f32⟩ : BufTy).Contents (Elt F)) :
    (⟨S_, .f32⟩ : BufTy).Contents (Elt F) :=
  Host.negf (Host.divf (Host.reduceAdd (mulf (val_main_v26 (F := F) t) lp) (val_main_cst_7 (F := F)) reducesTo_S8192_S_d0 h_S_)
    (val_main_cst_8 (F := F)))

/-- The reference's result is that function of its labels and of its gathered log-probabilities. -/
theorem val_main_v30_eq_lossOf (x0 : (⟨S8192x32000, .f32⟩ : BufTy).Contents (Elt F)) (x1 : (⟨S8192, .i32⟩ : BufTy).Contents (Elt F)) :
    val_main_v30 (F := F) x0 x1 = lossOf x1 (val_main_v19 (F := F) x0 x1) := rfl

end Cert.Loss

end
-- ==== Proof.KernelTail.lean ====
/-
  The kernel's host operations after the region, read as the loss function of the two buffers they start from:
  the clamped labels and the region's output column. The operations are the same, in the same order, as the ones
  that end the reference, so unfolding both sides' names leaves one term.
-/
import proofs.«422978_j42253888258851_2_alg».proof.Proof.Gen.KernelIdeal.Frame
import proofs.«422978_j42253888258851_2_alg».proof.Proof.KernelArr
import proofs.«422978_j42253888258851_2_alg».proof.Proof.Tail
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelTail

open Cert.KernelIdeal Cert.KernelIdeal.Gen

variable {F : FTy → Type} [FloatOps F]

set_option maxRecDepth 8192 in
/-- After the 39 operations that follow the region, from any contents `W`, the result buffer holds the loss function of
    `W`'s clamped-label buffer and of `W`'s output column read as a vector. -/
theorem tail_eq (W : Valuation τ sig (Elt F)) :
    StableHlo.after (hostOps1 (F := F)) W (Proc.devRef .tc main_v30)
      = Cert.Loss.lossOf (F := F) (W (Proc.devRef .tc main_v0)) (shapeCast S8192 (W (Proc.devRef .tc main_v2)) shapeCasts_S8192x1_S8192) := by
  after_results_simp
  unfold Cert.Loss.lossOf
  simp only [Cert.ReferenceIdeal.ReadP.val_main_v26, Cert.ReferenceIdeal.ReadP.val_main_v25, Cert.ReferenceIdeal.ReadP.val_main_v24,
    Cert.ReferenceIdeal.ReadP.val_main_v23, Cert.ReferenceIdeal.ReadP.val_main_v22, Cert.ReferenceIdeal.ReadP.val_main_v21, Cert.ReferenceIdeal.ReadP.val_main_v20,
    Cert.ReferenceIdeal.ReadP.val_main_v15, Cert.ReferenceIdeal.ReadP.val_main_v14, Cert.ReferenceIdeal.ReadP.val_main_v13, Cert.ReferenceIdeal.ReadP.val_main_v12,
    Cert.ReferenceIdeal.ReadP.val_main_v11, Cert.ReferenceIdeal.ReadP.val_main_v10, Cert.ReferenceIdeal.ReadP.val_main_v9, Cert.ReferenceIdeal.ReadP.val_main_v8,
    Cert.ReferenceIdeal.ReadP.val_main_v7, Cert.ReferenceIdeal.ReadP.val_main_v6, Cert.ReferenceIdeal.ReadP.val_main_v5, Cert.ReferenceIdeal.ReadP.val_main_v4,
    Cert.ReferenceIdeal.ReadP.val_main_v3, Cert.ReferenceIdeal.ReadP.val_main_v2, Cert.ReferenceIdeal.ReadP.val_main_v1, Cert.ReferenceIdeal.ReadP.val_main_v0,
    Cert.ReferenceIdeal.ReadP.val_main_cst, Cert.ReferenceIdeal.ReadP.val_main_c, Cert.ReferenceIdeal.ReadP.val_main_c_0, Cert.ReferenceIdeal.ReadP.val_main_cst_1,
    Cert.ReferenceIdeal.ReadP.val_main_cst_2, Cert.ReferenceIdeal.ReadP.val_main_cst_3, Cert.ReferenceIdeal.ReadP.val_main_cst_4, Cert.ReferenceIdeal.ReadP.val_main_c_5,
    Cert.ReferenceIdeal.ReadP.val_main_c_6, Cert.ReferenceIdeal.ReadP.val_main_cst_7, Cert.ReferenceIdeal.ReadP.val_main_cst_8]
  rfl

end Cert.KernelTail

end
-- ==== Proof.KernelValue.lean ====
/-
  The kernel's run, read: its result buffer ends at the loss function of the labels and of the per-row
  log-probabilities of the labels, whenever every label is a class number.

  The frame's run leaves the output column at `outG` (row by row the log-softmax at the label) and every other buffer
  as the operations after the region leave it; those operations are the loss function of the clamped labels and of the
  column; the clamp does nothing on class numbers.
-/
import proofs.«422978_j42253888258851_2_alg».proof.Proof.Gen.KernelIdeal.Frame
import proofs.«422978_j42253888258851_2_alg».proof.Proof.KernelArr
import proofs.«422978_j42253888258851_2_alg».proof.Proof.KernelPre
import proofs.«422978_j42253888258851_2_alg».proof.Proof.KernelTail
import Idealize.ShloMosaic.Lib.Pipeline.Value

noncomputable section

open Idealize.ShloMosaic Idealize.ShloMosaic.TcCoe Idealize.SL.Sem Idealize.ShloMosaic.ValueIdx Idealize.ShloMosaic.StableHlo

namespace Cert.KernelValue

open Cert.KernelIdeal Cert.KernelIdeal.Gen Cert.KernelArr Cert.KernelPre

variable (m : (ℓ : Loc nD τ sig) → Buf (Elt Ideal) ℓ) (ρ : Dev nD → PrngReg)

/-- The staged column's labels are class numbers when the labels are. -/
theorem col_range (c : Dev nD) (hr : ∀ i, (labels m c i).toNat < 32000) (i : S8192x1.Idx) :
    ((V m c main_v1 : S8192x1.Idx → BitVec 32) i).toNat < 32000 := by
  rw [V_v1_eq m c hr i]; exact hr _

/-- The output column read as a vector is the vector of per-row log-probabilities. -/
theorem col_eq_lp (c : Dev nD) (hr : ∀ i, (labels m c i).toNat < 32000) :
    shapeCast S8192 (outG (V m c main_arg0) (V m c main_v1) (col_range m c hr)) shapeCasts_S8192x1_S8192
      = Cert.Rows.lp (m ((c.tc : Thread nD τ).loc main_arg0)) (labels m c) hr := by
  funext i
  have h0 : (i 0).val < 8192 := (i 0).isLt
  refine (shapeCast_apply _ shapeCasts_S8192x1_S8192 i (ix2 (⟨(i 0).val, h0⟩ : Fin 8192) (0 : Fin 1)) (by
    rw [Shape.rowMajor_val_two, Shape.rowMajor_val_one]; show (i 0).val * 1 + 0 = (i 0).val; omega)).trans ?_
  unfold outG Cert.Rows.lp
  refine Cert.Rows.logp_congr (funext fun k => ?_) ?_
  · rw [V_main_arg0]
  · show ((V m c main_v1 : S8192x1.Idx → BitVec 32) (ix2 (⟨(i 0).val, h0⟩ : Fin 8192) (0 : Fin 1))).toNat = (labels m c i).toNat
    rw [V_v1_eq m c hr]
    exact congrArg (fun j => (labels m c j).toNat) (funext fun a => by match a with | ⟨0, _⟩ => rfl)

/-- THE RESULT the frame's run states for the result buffer, for labels that are class numbers. -/
theorem result_eq (c : Dev nD) (hr : ∀ i, (labels m c i).toNat < 32000) :
    Pipeline.afterTail₀ cfgs (dats m) 0 (V0 m) [hostOps1] c main_v30
      = Cert.Loss.lossOf (F := Ideal) (labels m c) (Cert.Rows.lp (m ((c.tc : Thread nD τ).loc main_arg0)) (labels m c) hr) := by
  unfold Pipeline.afterTail₀
  show StableHlo.after hostOps1 (Pipeline.withArrays spec0 c (V0 m c) fun w => (dats m 0 c).arrAt w cfg0.N) (Proc.devRef .tc main_v30) = _
  rw [Cert.KernelTail.tail_eq]
  have h0 : Pipeline.withArrays spec0 c (V0 m c) (fun w => (dats m 0 c).arrAt w cfg0.N) (Proc.devRef .tc main_v0)
      = V0 m c (Proc.devRef .tc main_v0) :=
    Pipeline.withArrays_of_ne spec0 c (V0 m c) _ main_v0 (by exact (by decide : ∀ w, Pipeline.arrRef spec0 w ≠ main_v0))
  have h2 : Pipeline.withArrays spec0 c (V0 m c) (fun w => (dats m 0 c).arrAt w cfg0.N) (Proc.devRef .tc main_v2)
      = (dats m 0 c).arrAt 2 cfg0.N :=
    Pipeline.withArrays_arr spec0 launch0.win.arr_inj c _ _ 2
  rw [h0, h2, final2 m c (col_range m c hr), col_eq_lp m c hr, V0_v0_eq m c hr]

/-- THE RUN: every weakly fair execution terminates with the result buffer at that value and the arguments unchanged. -/
theorem run (hr : ∀ c i, (labels m c i).toNat < 32000) :
    θ_run defs (onTc (τ := τ) (main (F := Ideal))) ⟨m, fun _ => 0, ρ⟩ fun r => ∀ c : Dev nD,
      r.2.mem ((c.tc : Thread nD τ).loc main_v30)
          = Cert.Loss.lossOf (F := Ideal) (labels m c) (Cert.Rows.lp (m ((c.tc : Thread nD τ).loc main_arg0)) (labels m c) (hr c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v30 (Pipeline.mem_restRefs_of main_v30 (by decide) (by decide))).trans (result_eq m c (hr c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelValue

end
-- ==== Proof.RefAfterWeights.lean ====
/-
  The first stretch of the reference: from the class labels alone it counts the labels per class (a scatter-add
  of ones into a zero vector, a negative label wrapped by the number of classes first), adds a small constant,
  raises the sum to the power -0.8 and divides by the largest entry. The result is the vector of mitigation
  weights, a function of the labels only. The stretch writes neither argument buffer.
-/
import proofs.«422978_j42253888258851_2_alg».proof.Proof.RefRead

noncomputable section

namespace Cert.RefAfter

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo

variable {F : FTy → Type} [FloatOps F]

/-- The 23 operations up to the mitigation weights. -/
abbrev l1 : List (HloOp τ sig (Elt F)) :=
  [ nullary main_cst (constant S_ .f32 0x00000000#32),
    unary main_cst main_v0 (broadcastInDim S32000 ![] bcast_S_S32000 : (⟨S_, .f32⟩ : BufTy).Contents (Elt F) → (⟨S32000, .f32⟩ : BufTy).Contents (Elt F)),
    nullary main_c (constantI S_ 32 0#32),
    unary main_c main_v1 (broadcastInDim S8192 ![] bcast_S_S8192 : (⟨S_, .i32⟩ : BufTy).Contents (Elt F) → (⟨S8192, .i32⟩ : BufTy).Contents (Elt F)),
    binary main_arg1 main_v1 main_v2 (cmpi .slt : (⟨S8192, .i32⟩ : BufTy).Contents (Elt F) → (⟨S8192, .i32⟩ : BufTy).Contents (Elt F) → (⟨S8192, .i1⟩ : BufTy).Contents (Elt F)),
    nullary main_c_0 (constantI S_ 32 32000#32),
    unary main_c_0 main_v3 (broadcastInDim S8192 ![] bcast_S_S8192 : (⟨S_, .i32⟩ : BufTy).Contents (Elt F) → (⟨S8192, .i32⟩ : BufTy).Contents (Elt F)),
    binary main_arg1 main_v3 main_v4 (addi : (⟨S8192, .i32⟩ : BufTy).Contents (Elt F) → (⟨S8192, .i32⟩ : BufTy).Contents (Elt F) → (⟨S8192, .i32⟩ : BufTy).Contents (Elt F)),
    ternary main_v2 main_v4 main_arg1 main_v5 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v5 main_v6 (broadcastInDim S8192x1 ![0] bcast_S8192_S8192x1_0 : (⟨S8192, .i32⟩ : BufTy).Contents (Elt F) → (⟨S8192x1, .i32⟩ : BufTy).Contents (Elt F)),
    nullary main_cst_1 (constant S_ .f32 0x3F800000#32),
    unary main_cst_1 main_v7 (broadcastInDim S8192 ![] bcast_S_S8192 : (⟨S_, .f32⟩ : BufTy).Contents (Elt F) → (⟨S8192, .f32⟩ : BufTy).Contents (Elt F)),
    ternary main_v0 main_v6 main_v7 main_v8 ((fun x i u => Host.scatterAdd scatter_S32000_S8192x1_S8192_n_0_0_1 x i u) : (⟨S32000, .f32⟩ : BufTy).Contents (Elt F) → (⟨S8192x1, .i32⟩ : BufTy).Contents (Elt F) → (⟨S8192, .f32⟩ : BufTy).Contents (Elt F) → (⟨S32000, .f32⟩ : BufTy).Contents (Elt F)),
    nullary main_cst_2 (constant S_ .f32 0x3C23D70A#32),
    unary main_cst_2 main_v9 (broadcastInDim S32000 ![] bcast_S_S32000 : (⟨S_, .f32⟩ : BufTy).Contents (Elt F) → (⟨S32000, .f32⟩ : BufTy).Contents (Elt F)),
    binary main_v8 main_v9 main_v10 (addf : (⟨S32000, .f32⟩ : BufTy).Contents (Elt F) → (⟨S32000, .f32⟩ : BufTy).Contents (Elt F) → (⟨S32000, .f32⟩ : BufTy).Contents (Elt F)),
    nullary main_cst_3 (constant S_ .f32 0xBF4CCCCD#32),
    unary main_cst_3 main_v11 (broadcastInDim S32000 ![] bcast_S_S32000 : (⟨S_, .f32⟩ : BufTy).Contents (Elt F) → (⟨S32000, .f32⟩ : BufTy).Contents (Elt F)),
    binary main_v10 main_v11 main_v12 (Host.powf : (⟨S32000, .f32⟩ : BufTy).Contents (Elt F) → (⟨S32000, .f32⟩ : BufTy).Contents (Elt F) → (⟨S32000, .f32⟩ : BufTy).Contents (Elt F)),
    nullary main_cst_4 (constant S_ .f32 0xFF800000#32),
    binary main_v12 main_cst_4 main_v13 ((fun x v => Host.reduce FloatOps.maximumf x v reducesTo_S32000_S_d0 h_S_) : (⟨S32000, .f32⟩ : BufTy).Contents (Elt F) → (⟨S_, .f32⟩ : BufTy).Contents (Elt F) → (⟨S_, .f32⟩ : BufTy).Contents (Elt F)),
    unary main_v13 main_v14 (broadcastInDim S32000 ![] bcast_S_S32000 : (⟨S_, .f32⟩ : BufTy).Contents (Elt F) → (⟨S32000, .f32⟩ : BufTy).Contents (Elt F)),
    binary main_v12 main_v14 main_v15 (Host.divf : (⟨S32000, .f32⟩ : BufTy).Contents (Elt F) → (⟨S32000, .f32⟩ : BufTy).Contents (Elt F) → (⟨S32000, .f32⟩ : BufTy).Contents (Elt F)) ]

/-- From any contents, after this stretch the weights' buffer holds the weights' stage of the labels found there. -/
theorem l1_v15 (W : Valuation τ sig (Elt F)) :
    after (l1 (F := F)) W (Proc.devRef .tc main_v15) = val_main_v15 (F := F) (W (Proc.devRef .tc main_arg1)) := by
  after_results_simp
  rfl

/-- The stretch does not write the logits. -/
theorem l1_arg0 (W : Valuation τ sig (Elt F)) :
    after (l1 (F := F)) W (Proc.devRef .tc main_arg0) = W (Proc.devRef .tc main_arg0) := by
  after_results_simp <;> rfl

/-- The stretch does not write the labels. -/
theorem l1_arg1 (W : Valuation τ sig (Elt F)) :
    after (l1 (F := F)) W (Proc.devRef .tc main_arg1) = W (Proc.devRef .tc main_arg1) := by
  after_results_simp <;> rfl

end Cert.RefAfter

end
-- ==== Proof.RefAfterTyped.lean ====
/-
  A typed reference names a buffer together with the type of the tensor value it holds; contents move between
  the value's type and the buffer's own type along that equation. Moving there and back changes nothing.
-/
import Idealize.ShloMosaic.Lib.StableHlo

noncomputable section

namespace Cert.RefAfter

open Idealize.ShloMosaic Idealize.ShloMosaic.StableHlo

variable {sig : RefSig} {Val : EltTy → Type} {T : BufTy}

/-- Contents carried to a typed reference's buffer type and back are the contents one started with: once the
    buffer's type is taken to be the value's type, both transports are along the trivial equation. -/
theorem ofBuf_toBuf (x : TRef sig T) (v : T.Contents Val) : x.ofBuf (x.toBuf v) = v := by
  obtain ⟨r, h, _, _⟩ := x
  subst h
  rfl

end Cert.RefAfter

end
-- ==== Proof.RefAfterLogSoftmax.lean ====
/-
  The second stretch of the reference: the log-softmax of the logits, row by row. Each row's largest entry is
  subtracted, the shifted row is exponentiated and summed, and the logarithm of the sum is subtracted from the
  shifted row. The result is a function of the logits only; the labels and the weights are not written.
-/
import proofs.«422978_j42253888258851_2_alg».proof.Proof.RefRead
import proofs.«422978_j42253888258851_2_alg».proof.Proof.RefAfterTyped

noncomputable section

namespace Cert.RefAfter

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo

variable {F : FTy → Type} [FloatOps F]

/-- The 15 operations of the row-wise log-softmax. -/
abbrev l2 : List (HloOp τ sig (Elt F)) :=
  [ TRef.nullary (TRef.of (T := ⟨S_, .f32⟩) main_call0_cst) (constant S_ .f32 0xFF800000#32),
    TRef.binary (TRef.of (T := ⟨S8192x32000, .f32⟩) main_arg0) (TRef.of (T := ⟨S_, .f32⟩) main_call0_cst) (TRef.of (T := ⟨S8192, .f32⟩) main_call0_v0) (fun x v => Host.reduce FloatOps.maximumf x v reducesTo_S8192x32000_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x32000, .f32⟩) main_call0_v4) (broadcastInDim S8192x32000 ![0, 1] bcast_S8192x1_S8192x32000_0_1),
    TRef.binary (TRef.of (T := ⟨S8192x32000, .f32⟩) main_arg0) (TRef.of (T := ⟨S8192x32000, .f32⟩) main_call0_v4) (TRef.of (T := ⟨S8192x32000, .f32⟩) main_call0_v5) subf,
    TRef.unary (TRef.of (T := ⟨S8192x32000, .f32⟩) main_call0_v5) (TRef.of (T := ⟨S8192x32000, .f32⟩) main_call0_v6) Host.exp,
    TRef.nullary (TRef.of (T := ⟨S_, .f32⟩) main_call0_cst_1) (constant S_ .f32 0x00000000#32),
    TRef.binary (TRef.of (T := ⟨S8192x32000, .f32⟩) main_call0_v6) (TRef.of (T := ⟨S_, .f32⟩) main_call0_cst_1) (TRef.of (T := ⟨S8192, .f32⟩) main_call0_v7) (fun x v => Host.reduceAdd x v reducesTo_S8192x32000_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x32000, .f32⟩) main_call0_v10) (broadcastInDim S8192x32000 ![0, 1] bcast_S8192x1_S8192x32000_0_1),
    TRef.binary (TRef.of (T := ⟨S8192x32000, .f32⟩) main_call0_v5) (TRef.of (T := ⟨S8192x32000, .f32⟩) main_call0_v10) (TRef.of (T := ⟨S8192x32000, .f32⟩) main_v16) subf ]

/-- From any contents, after this stretch the log-softmax buffer holds the log-softmax stage of the logits found
    there. Every intermediate value passes through its typed buffer and back, which is the identity. -/
theorem l2_v16 (W : Valuation τ sig (Elt F)) :
    after (l2 (F := F)) W (Proc.devRef .tc main_v16) = val_main_v16 (F := F) (W (Proc.devRef .tc main_arg0)) := by
  after_results_simp
  simp only [ofBuf_toBuf]
  rfl

/-- The stretch does not write the labels. -/
theorem l2_arg1 (W : Valuation τ sig (Elt F)) :
    after (l2 (F := F)) W (Proc.devRef .tc main_arg1) = W (Proc.devRef .tc main_arg1) := by
  after_results_simp <;> rfl

/-- The stretch does not write the weights. -/
theorem l2_v15 (W : Valuation τ sig (Elt F)) :
    after (l2 (F := F)) W (Proc.devRef .tc main_v15) = W (Proc.devRef .tc main_v15) := by
  after_results_simp <;> rfl

end Cert.RefAfter

end
-- ==== Proof.RefAfterGather.lean ====
/-
  The third stretch of the reference: each row of the log-softmax is read at the row's label. The label is
  wrapped when negative, tested for lying inside the row, the entry is gathered, an out-of-range label yields the
  fill value instead, and the column of results is reshaped to a vector. The result depends on the log-softmax
  and on the labels; the labels and the weights are not written.
-/
import proofs.«422978_j42253888258851_2_alg».proof.Proof.RefRead
import proofs.«422978_j42253888258851_2_alg».proof.Proof.RefAfterTyped

noncomputable section

namespace Cert.RefAfter

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo

variable {F : FTy → Type} [FloatOps F]

/-- The 24 operations from the labels' column to the vector of gathered log-probabilities. -/
abbrev l3 : List (HloOp τ sig (Elt F)) :=
  [ unary main_arg1 main_v17 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192x1, .i32⟩) main_call1_v0) (broadcastInDim S8192x1 ![] bcast_S_S8192x1),
    TRef.binary (TRef.of (T := ⟨S8192x1, .i32⟩) main_v17) (TRef.of (T := ⟨S8192x1, .i32⟩) main_call1_v0) (TRef.of (T := ⟨S8192x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S8192x1, .i32⟩) main_call1_v2) (broadcastInDim S8192x1 ![] bcast_S_S8192x1),
    TRef.binary (TRef.of (T := ⟨S8192x1, .i32⟩) main_v17) (TRef.of (T := ⟨S8192x1, .i32⟩) main_call1_v2) (TRef.of (T := ⟨S8192x1, .i32⟩) main_call1_v3) addi,
    TRef.ternary (TRef.of (T := ⟨S8192x1, .i1⟩) main_call1_v1) (TRef.of (T := ⟨S8192x1, .i32⟩) main_call1_v3) (TRef.of (T := ⟨S8192x1, .i32⟩) main_v17) (TRef.of (T := ⟨S8192x1, .i32⟩) main_call1_v4) select,
    TRef.reshape (TRef.of (T := ⟨S8192x1, .i32⟩) main_call1_v4) (TRef.of (T := ⟨S8192x1x1, .i32⟩) main_call1_v5) rfl shapeCasts_S8192x1_S8192x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S8192x1x1, .i32⟩) main_call1_v6) (broadcastInDim S8192x1x1 ![] bcast_S_S8192x1x1),
    TRef.binary (TRef.of (T := ⟨S8192x1x1, .i32⟩) main_call1_v5) (TRef.of (T := ⟨S8192x1x1, .i32⟩) main_call1_v6) (TRef.of (T := ⟨S8192x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x1x1, .i32⟩) main_call1_v9) (broadcastInDim S8192x1x1 ![0, 1, 2] bcast_S1x1x1_S8192x1x1_0_1_2),
    TRef.binary (TRef.of (T := ⟨S8192x1x1, .i32⟩) main_call1_v5) (TRef.of (T := ⟨S8192x1x1, .i32⟩) main_call1_v9) (TRef.of (T := ⟨S8192x1x1, .i1⟩) main_call1_v10) (cmpi .sle),
    TRef.binary (TRef.of (T := ⟨S8192x1x1, .i1⟩) main_call1_v7) (TRef.of (T := ⟨S8192x1x1, .i1⟩) main_call1_v10) (TRef.of (T := ⟨S8192x1x1, .i1⟩) main_call1_v11) andi,
    TRef.nullary (TRef.of (T := ⟨S_, .i1⟩) main_call1_c_3) (constantI S_ 1 1#1),
    TRef.binary (TRef.of (T := ⟨S8192x1x1, .i1⟩) main_call1_v11) (TRef.of (T := ⟨S_, .i1⟩) main_call1_c_3) (TRef.of (T := ⟨S8192x1, .i1⟩) main_call1_v12) (fun x v => Host.reduce IntOp.andi x v reducesTo_S8192x1x1_S8192x1_d2 h_S_),
    TRef.binary (TRef.of (T := ⟨S8192x32000, .f32⟩) main_v16) (TRef.of (T := ⟨S8192x1x1, .i32⟩) main_call1_v5) (TRef.of (T := ⟨S8192x1, .f32⟩) main_call1_v13) (fun x i => Host.gather gather_S8192x32000_S8192x1x1_S8192x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x1, .f32⟩) main_call1_v14) (broadcastInDim S8192x1 ![] bcast_S_S8192x1),
    TRef.ternary (TRef.of (T := ⟨S8192x1, .i1⟩) main_call1_v12) (TRef.of (T := ⟨S8192x1, .f32⟩) main_call1_v13) (TRef.of (T := ⟨S8192x1, .f32⟩) main_call1_v14) (TRef.of (T := ⟨S8192x1, .f32⟩) main_v18) select,
    reshape main_v18 main_v19 rfl shapeCasts_S8192x1_S8192 ]

/-- From contents whose log-softmax buffer holds the log-softmax stage of some logits `x0`, after this stretch the
    gathered vector is the gather stage of `x0` and of the labels found there. -/
theorem l3_v19 (W : Valuation τ sig (Elt F)) (x0 : (⟨S8192x32000, .f32⟩ : BufTy).Contents (Elt F))
    (h16 : W (Proc.devRef .tc main_v16) = val_main_v16 (F := F) x0) :
    after (l3 (F := F)) W (Proc.devRef .tc main_v19) = val_main_v19 (F := F) x0 (W (Proc.devRef .tc main_arg1)) := by
  after_results_simp
  simp only [ofBuf_toBuf]
  rw [h16]
  rfl

/-- The stretch does not write the labels. -/
theorem l3_arg1 (W : Valuation τ sig (Elt F)) :
    after (l3 (F := F)) W (Proc.devRef .tc main_arg1) = W (Proc.devRef .tc main_arg1) := by
  after_results_simp <;> rfl

/-- The stretch does not write the weights. -/
theorem l3_v15 (W : Valuation τ sig (Elt F)) :
    after (l3 (F := F)) W (Proc.devRef .tc main_v15) = W (Proc.devRef .tc main_v15) := by
  after_results_simp <;> rfl

end Cert.RefAfter

end
-- ==== Proof.RefAfterLoss.lean ====
/-
  The last stretch of the reference: each row's weight is gathered at the row's (wrapped) label, multiplied with
  the row's gathered log-probability, the products are summed, divided by the number of rows and negated.
-/
import proofs.«422978_j42253888258851_2_alg».proof.Proof.RefRead

noncomputable section

namespace Cert.RefAfter

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo

variable {F : FTy → Type} [FloatOps F]

/-- The 15 operations from the weights, the labels and the gathered log-probabilities to the loss. -/
abbrev l4 : List (HloOp τ sig (Elt F)) :=
  [ nullary main_c_5 (constantI S_ 32 0#32),
    unary main_c_5 main_v20 (broadcastInDim S8192 ![] bcast_S_S8192 : (⟨S_, .i32⟩ : BufTy).Contents (Elt F) → (⟨S8192, .i32⟩ : BufTy).Contents (Elt F)),
    binary main_arg1 main_v20 main_v21 (cmpi .slt : (⟨S8192, .i32⟩ : BufTy).Contents (Elt F) → (⟨S8192, .i32⟩ : BufTy).Contents (Elt F) → (⟨S8192, .i1⟩ : BufTy).Contents (Elt F)),
    nullary main_c_6 (constantI S_ 32 32000#32),
    unary main_c_6 main_v22 (broadcastInDim S8192 ![] bcast_S_S8192 : (⟨S_, .i32⟩ : BufTy).Contents (Elt F) → (⟨S8192, .i32⟩ : BufTy).Contents (Elt F)),
    binary main_arg1 main_v22 main_v23 (addi : (⟨S8192, .i32⟩ : BufTy).Contents (Elt F) → (⟨S8192, .i32⟩ : BufTy).Contents (Elt F) → (⟨S8192, .i32⟩ : BufTy).Contents (Elt F)),
    ternary main_v21 main_v23 main_arg1 main_v24 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v24 main_v25 (broadcastInDim S8192x1 ![0] bcast_S8192_S8192x1_0 : (⟨S8192, .i32⟩ : BufTy).Contents (Elt F) → (⟨S8192x1, .i32⟩ : BufTy).Contents (Elt F)),
    binary main_v15 main_v25 main_v26 ((fun x i => Host.gather gather_S32000_S8192x1_S8192_n_0_n_n_0_1_1 x i) : (⟨S32000, .f32⟩ : BufTy).Contents (Elt F) → (⟨S8192x1, .i32⟩ : BufTy).Contents (Elt F) → (⟨S8192, .f32⟩ : BufTy).Contents (Elt F)),
    binary main_v26 main_v19 main_v27 (mulf : (⟨S8192, .f32⟩ : BufTy).Contents (Elt F) → (⟨S8192, .f32⟩ : BufTy).Contents (Elt F) → (⟨S8192, .f32⟩ : BufTy).Contents (Elt F)),
    nullary main_cst_7 (constant S_ .f32 0x00000000#32),
    binary main_v27 main_cst_7 main_v28 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_8 (constant S_ .f32 0x46000000#32),
    binary main_v28 main_cst_8 main_v29 (Host.divf : (⟨S_, .f32⟩ : BufTy).Contents (Elt F) → (⟨S_, .f32⟩ : BufTy).Contents (Elt F) → (⟨S_, .f32⟩ : BufTy).Contents (Elt F)),
    unary main_v29 main_v30 (Host.negf : (⟨S_, .f32⟩ : BufTy).Contents (Elt F) → (⟨S_, .f32⟩ : BufTy).Contents (Elt F)) ]

/-- From contents holding labels `x1`, their weights and the gathered log-probabilities of `x0` at `x1`, after
    this stretch the result buffer holds the last stage of `x0` and `x1`. -/
theorem l4_v30 (W : Valuation τ sig (Elt F)) (x0 : (⟨S8192x32000, .f32⟩ : BufTy).Contents (Elt F))
    (x1 : (⟨S8192, .i32⟩ : BufTy).Contents (Elt F))
    (h1 : W (Proc.devRef .tc main_arg1) = x1)
    (h15 : W (Proc.devRef .tc main_v15) = val_main_v15 (F := F) x1)
    (h19 : W (Proc.devRef .tc main_v19) = val_main_v19 (F := F) x0 x1) :
    after (l4 (F := F)) W (Proc.devRef .tc main_v30) = val_main_v30 (F := F) x0 x1 := by
  after_results_simp
  rw [h1, h15, h19]
  rfl

end Cert.RefAfter

end
-- ==== Proof.RefAfter.lean ====
/-
  What the reference's result buffer holds after its whole line of operations, from any contents of the buffers:
  the result stage of the two argument buffers.

  The line is cut into four stretches: the mitigation weights (a function of the labels), the row-wise
  log-softmax (a function of the logits), the gather of each row's log-probability at its label, and the weighted
  negated mean. Running the whole line is running the stretches one after the other. Each stretch computes its
  stage from the buffers it reads and leaves alone the buffers the later stretches still read, so the four facts
  chain: the labels and the logits are found unchanged by every stretch that reads them, the weights survive the
  two middle stretches, and the last stretch meets exactly the three values its stage is a function of.
-/
import proofs.«422978_j42253888258851_2_alg».proof.Proof.RefRead
import proofs.«422978_j42253888258851_2_alg».proof.Proof.RefAfterWeights
import proofs.«422978_j42253888258851_2_alg».proof.Proof.RefAfterLogSoftmax
import proofs.«422978_j42253888258851_2_alg».proof.Proof.RefAfterGather
import proofs.«422978_j42253888258851_2_alg».proof.Proof.RefAfterLoss

noncomputable section

namespace Cert.RefAfter

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo

variable {F : FTy → Type} [FloatOps F]

/-- The reference's 77 operations are the four stretches in a row. -/
theorem ops_eq : ops (F := F) = l1 ++ l2 ++ l3 ++ l4 := rfl

/-- Running two lines in a row is running the first and then, from what it leaves, the second. -/
theorem after_app {Val : EltTy → Type} (a b : List (HloOp τ sig Val)) (V : Valuation τ sig Val) :
    after (a ++ b) V = after b (after a V) := by
  induction a generalizing V with
  | nil => rfl
  | cons op a ih => exact ih (op.result V)

/-- After the reference's 77 operations, from any valuation `V`, the result buffer holds the last stage
    of `V`'s two argument buffers. -/
theorem after_ops_v30 (V : Valuation τ sig (Elt F)) :
    after (ops (F := F)) V (Proc.devRef .tc main_v30)
      = val_main_v30 (F := F) (V (Proc.devRef .tc main_arg0)) (V (Proc.devRef .tc main_arg1)) := by
  rw [ops_eq, after_app, after_app, after_app]
  refine l4_v30 _ _ _ ?_ ?_ ?_
  · -- the labels reach the last stretch unchanged
    rw [l3_arg1, l2_arg1, l1_arg1]
  · -- the weights, made by the first stretch from the labels, survive the two middle stretches
    rw [l3_v15, l2_v15, l1_v15]
  · -- the gathered log-probabilities: the third stretch meets the log-softmax of the unchanged logits
    rw [l3_v19 _ (V (Proc.devRef .tc main_arg0)) (by rw [l2_v16, l1_arg0]), l2_arg1, l1_arg1]

end Cert.RefAfter

end
-- ==== Proof.RefRow.lean ====
/-
  The reference's gathered log-probability of row `r`, read at that row: the row's log-softmax at its label.

  For a label `w` inside `[0, 32000)` three things meet. The wrap of a negative index leaves `w` alone, so the start
  index of row `r` is `w`; the in-range mask (a conjunction over a one-point axis of "at least 0 and at most 31999")
  is set, so the select keeps the gathered value and not the NaN filler; and the gather, batched over the rows,
  reads row `r` of the log-softmax at the clamp of `w` into `[0, 31999]`, which is `w` itself. Entry `(r, j)` of the
  log-softmax is `(x (r, j) - M) - log (∑ k, exp (x (r, k) - M))` with `M` the fold of `max` over row `r` from -∞.
-/
import proofs.«422978_j42253888258851_2_alg».proof.Proof.RefRead
import proofs.«422978_j42253888258851_2_alg».proof.Proof.RowLaw
import Idealize.ShloMosaic.Lib.ValueIdx
import Idealize.ShloMosaic.Lib.Pipeline.Value

noncomputable section

namespace Cert.RefRow

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## The label of a row, and the in-range mask

The layout operations between the labels `[8192]` and the start indices `[8192, 1, 1]` (a broadcast to a column and a
reshape that adds a unit axis) read, at the coordinates of row `r`, the coordinates of row `r` again. -/

/-- The reshape `[8192, 1] → [8192]` reads element `r` at `(r, 0)`. -/
theorem idx_v19 (r : Fin 8192) : idx_main_v19 (ix1 r) = ix2 r 0 :=
  funext fun a => Fin.ext (by match a with | ⟨0, _⟩ => (show r.val / 1 = r.val; omega) | ⟨1, _⟩ => rfl)

/-- The reshape `[8192, 1] → [8192, 1, 1]` reads element `(r, 0, 0)` at `(r, 0)`. -/
theorem idx_c1v5 (r : Fin 8192) : idx_main_call1_v5 (ix3 r 0 0) = ix2 r 0 :=
  funext fun a => Fin.ext (by
    match a with
    | ⟨0, _⟩ => (show ((r.val * 1 + 0) * 1 + 0) / 1 = r.val; omega)
    | ⟨1, _⟩ => rfl)

/-- The broadcast `[8192] → [8192, 1]` reads element `(r, 0)` at `r`. -/
theorem idx_v17 (r : Fin 8192) : idx_main_v17 (ix2 r 0) = ix1 r :=
  funext fun a => Fin.ext (by match a with | ⟨0, _⟩ => rfl)

/-- The start index of row `r`: the label itself, since a label inside `[0, 32000)` is not wrapped. -/
theorem label_row (x1 : (⟨S8192, .i32⟩ : BufTy).Contents (Elt Ideal)) (r : Fin 8192) (hw : (x1 (ix1 r)).toNat < 32000) :
    val_main_call1_v5 (F := Ideal) x1 (ix3 r 0 0) = x1 (ix1 r) := by
  rw [val_main_call1_v5_apply, idx_c1v5, val_main_call1_v4_apply, val_main_call1_v1_apply, val_main_call1_v3_apply,
    val_main_v17_apply, idx_v17, val_main_call1_v0_apply, val_main_call1_c_apply, val_main_call1_v2_apply,
    val_main_call1_c_0_apply]
  exact Cert.Rows.wrap_eq _ hw

/-- A fold over a one-point range is one step. -/
theorem fold_fin_one {β : Type} (op : β → β → β) [Std.Commutative op] [Std.Associative op] (b : β) (f : Fin 1 → β) :
    (Finset.univ : Finset (Fin 1)).fold op b f = op (f 0) b := by
  rw [Finset.univ_unique, Finset.fold_singleton]; rfl

/-- The in-range mask of row `r` is set. -/
theorem mask_row (x1 : (⟨S8192, .i32⟩ : BufTy).Contents (Elt Ideal)) (r : Fin 8192) (hw : (x1 (ix1 r)).toNat < 32000) :
    val_main_call1_v12 (F := Ideal) x1 (ix2 r 0) = 1#1 := by
  have hR : S8192x1x1.Reduces [2] S8192x1 := by decide
  have hl : hR.lift (ix2 r 0) (0 : Fin 1) = ix3 r 0 0 :=
    funext fun a => Fin.ext (by match a with | ⟨0, _⟩ => rfl | ⟨1, _⟩ => rfl | ⟨2, _⟩ => rfl)
  unfold val_main_call1_v12
  rw [Host.reduce_eq_fold_single IntOp.andi _ _ reducesTo_S8192x1x1_S8192x1_d2 hR h_S_]
  refine (fold_fin_one IntOp.andi _ _).trans ?_
  show IntOp.andi (val_main_call1_v11 (F := Ideal) x1 (hR.lift (ix2 r 0) (0 : Fin 1))) _ = 1#1
  rw [hl, val_main_call1_v11_apply, val_main_call1_v7_apply, val_main_call1_v10_apply, label_row x1 r hw,
    val_main_call1_v6_apply, val_main_call1_c_2_apply, val_main_call1_v9_apply, val_main_call1_v8_apply,
    val_main_call1_c_1_apply, Cert.Rows.inrange_eq_one _ hw, val_main_call1_c_3_apply]
  rfl

/-! ## The batched gather at a row

The operand is `[8192, 32000]`, the start indices `[8192, 1, 1]`, the result `[8192, 1]`. Axis 0 of the operand is a
batching axis paired with axis 0 of the start indices, axis 1 is collapsed and is the one axis the start index names.
So result element `(r, 0)` reads the operand at row `r` (the batching coordinate; start and offset vanish there) and at the
column that start index `(r, 0, 0)` names, read signed and clamped into `[0, 31999]` (batching and offset vanish there). -/

/-- Result element `(r, 0)` of the gather: the operand at row `r`, at the clamped start index of that row. -/
theorem gather_row {α : Type} (x : S8192x32000.Idx → α) (idx : IVec S8192x1x1 32) (r : Fin 8192) :
    Host.gather gather_S8192x32000_S8192x1x1_S8192x1_n_1_0_0_1_2_11 x idx (ix2 r 0)
      = x (ix2 r ⟨min (idx (ix3 r 0 0)).toInt.toNat (32000 - 1), by omega⟩) := by
  unfold Host.gather
  congr 1
  funext a
  refine Fin.ext ?_
  match a with
  | ⟨0, _⟩ =>
    show gather_S8192x32000_S8192x1x1_S8192x1_n_1_0_0_1_2_11.start (ix2 r 0) idx 0
        + gather_S8192x32000_S8192x1x1_S8192x1_n_1_0_0_1_2_11.batchCoord (ix2 r 0) 0
        + gather_S8192x32000_S8192x1x1_S8192x1_n_1_0_0_1_2_11.offCoord (ix2 r 0) 0 = r.val
    have hb : (0 : Fin S8192x32000.rank) ∈ gather_S8192x32000_S8192x1x1_S8192x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    simp only [Nat.zero_add, Nat.add_zero]
    rfl
  | ⟨1, _⟩ =>
    show gather_S8192x32000_S8192x1x1_S8192x1_n_1_0_0_1_2_11.start (ix2 r 0) idx 1
        + gather_S8192x32000_S8192x1x1_S8192x1_n_1_0_0_1_2_11.batchCoord (ix2 r 0) 1
        + gather_S8192x32000_S8192x1x1_S8192x1_n_1_0_0_1_2_11.offCoord (ix2 r 0) 1 = min (idx (ix3 r 0 0)).toInt.toNat (32000 - 1)
    have hm : (1 : Fin S8192x32000.rank) ∈ gather_S8192x32000_S8192x1x1_S8192x1_n_1_0_0_1_2_11.startIndexMap :=
      List.mem_singleton.mpr rfl
    have hc : (1 : Fin S8192x32000.rank) ∈ gather_S8192x32000_S8192x1x1_S8192x1_n_1_0_0_1_2_11.collapsedSliceDims :=
      List.mem_singleton.mpr rfl
    rw [GatherDims.batchCoord_eq_zero _ _ _ (by decide),
      GatherDims.offCoord_eq_zero _ _ _ (fun h => ((GatherDims.mem_sKept _ _).mp h).1 hc)]
    simp only [Nat.add_zero]
    unfold GatherDims.start
    rw [dif_pos hm]
    have hsi : gather_S8192x32000_S8192x1x1_S8192x1_n_1_0_0_1_2_11.siIdx (ix2 r 0)
        ⟨List.idxOf (1 : Fin S8192x32000.rank) gather_S8192x32000_S8192x1x1_S8192x1_n_1_0_0_1_2_11.startIndexMap,
          List.idxOf_lt_length_iff.2 hm⟩ = ix3 r 0 0 := by
      funext b; refine Fin.ext ?_
      match b with
      | ⟨0, _⟩ => rfl
      | ⟨1, _⟩ => rfl
      | ⟨2, _⟩ => rfl
    rw [hsi]
    rfl

/-! ## The row's log-softmax

The keepdims columns `[8192] → [8192, 1] → [8192, 32000]` of the row maximum and of the log of the row sum read, at
`(r, j)`, element `r`; the sum over the columns of row `r` reads `(r, k)`. -/

theorem idx_c0v3 (r : Fin 8192) : idx_main_call0_v3 (ix2 r 0) = ix1 r :=
  funext fun a => Fin.ext (by match a with | ⟨0, _⟩ => rfl)

theorem idx_c0v4 (r : Fin 8192) (j : Fin 32000) : idx_main_call0_v4 (ix2 r j) = ix2 r 0 :=
  funext fun a => Fin.ext (by match a with | ⟨0, _⟩ => rfl | ⟨1, _⟩ => rfl)

theorem idx_c0v8 (r : Fin 8192) : idx_main_call0_v8 (ix2 r 0) = ix1 r :=
  funext fun a => Fin.ext (by match a with | ⟨0, _⟩ => rfl)

theorem idx_c0v10 (r : Fin 8192) (j : Fin 32000) : idx_main_call0_v10 (ix2 r j) = ix2 r 0 :=
  funext fun a => Fin.ext (by match a with | ⟨0, _⟩ => rfl | ⟨1, _⟩ => rfl)

theorem idx_c0v7 (r : Fin 8192) (k : Fin 32000) : idx_main_call0_v7 (ix1 r) k = ix2 r k :=
  funext fun a => Fin.ext (by match a with | ⟨0, _⟩ => rfl | ⟨1, _⟩ => rfl)

/-- The largest entry of row `r`, as the reference computes it: the reduce over the columns, then once more `max` with -∞. -/
theorem max_row (x0 : (⟨S8192x32000, .f32⟩ : BufTy).Contents (Elt Ideal)) (r : Fin 8192) :
    val_main_call0_v2 (F := Ideal) x0 (ix1 r) = Cert.Rows.rowMax (fun k => x0 (ix2 r k)) := by
  have hR : S8192x32000.Reduces [1] S8192 := by decide
  have hl : (x0 ∘ hR.lift (ix1 r)) = fun k : Fin 32000 => x0 (ix2 r k) :=
    funext fun k => congrArg x0 (funext fun a => Fin.ext (by match a with | ⟨0, _⟩ => rfl | ⟨1, _⟩ => rfl))
  rw [val_main_call0_v2_apply, val_main_call0_v1_apply, val_main_call0_cst_0_apply]
  unfold val_main_call0_v0
  rw [Host.reduce_eq_fold_single (FloatOps.maximumf (F := Ideal) (φ := .f32)) x0 _ reducesTo_S8192x32000_S8192_d1 hR h_S_, hl]
  simp only [Ideal.maximumf_def, Ideal.ofBits_def]
  rw [Cert.Rows.max_neg_inf]
  rfl

/-- Entry `(r, j)` of the reference's log-softmax is the row function at `j`. -/
theorem lsm_row (x0 : (⟨S8192x32000, .f32⟩ : BufTy).Contents (Elt Ideal)) (r : Fin 8192) (j : Fin 32000) :
    val_main_v16 (F := Ideal) x0 (ix2 r j) = Cert.Rows.logp (fun k => x0 (ix2 r k)) j := by
  have h5 : ∀ k : Fin 32000, val_main_call0_v5 (F := Ideal) x0 (ix2 r k)
      = x0 (ix2 r k) - Cert.Rows.rowMax (fun k => x0 (ix2 r k)) := fun k => by
    rw [val_main_call0_v5_apply, val_main_call0_v4_apply, idx_c0v4, val_main_call0_v3_apply, idx_c0v3, max_row]
    rfl
  rw [val_main_v16_apply, h5, val_main_call0_v10_apply, idx_c0v10, val_main_call0_v9_apply, val_main_call0_v8_apply,
    idx_c0v8, val_main_call0_v7_apply, val_main_call0_cst_1_apply]
  simp only [idx_c0v7, val_main_call0_v6_apply, h5, Ideal.subf_def, Ideal.hostUnary_exp_def, Ideal.hostUnary_log_def,
    Ideal.ofBits_def, Ideal.ofBits_zero_f32, zero_add]
  rfl

/-! ## The row -/

/-- Row `r` of the reference's `take_along_axis(log_softmax(logits), labels)`, for a label inside `[0, 32000)`:
    entry `label` of the log-softmax of row `r` of the logits. -/
theorem ref_row (x0 : (⟨S8192x32000, .f32⟩ : BufTy).Contents (Elt Ideal)) (x1 : (⟨S8192, .i32⟩ : BufTy).Contents (Elt Ideal))
    (r : Fin 8192) (hw : (x1 (ix1 r)).toNat < 32000) :
    val_main_v19 (F := Ideal) x0 x1 (ix1 r) = Cert.Rows.logp (fun k => x0 (ix2 r k)) ⟨(x1 (ix1 r)).toNat, hw⟩ := by
  rw [val_main_v19_apply, idx_v19, val_main_v18_apply, mask_row x1 r hw, select_one]
  unfold val_main_call1_v13
  rw [gather_row]
  have e : (⟨min (val_main_call1_v5 (F := Ideal) x1 (ix3 r 0 0)).toInt.toNat (32000 - 1), by omega⟩ : Fin 32000)
      = ⟨(x1 (ix1 r)).toNat, hw⟩ :=
    Fin.ext (by
      show min (val_main_call1_v5 (F := Ideal) x1 (ix3 r 0 0)).toInt.toNat (32000 - 1) = (x1 (ix1 r)).toNat
      rw [label_row x1 r hw]
      exact Cert.Rows.clampNat_eq _ hw)
  rw [e, lsm_row]

end Cert.RefRow

end
-- ==== Proof.RefValue.lean ====
/-
  The reference's result, read: the loss function of its labels and of the per-row log-probabilities of the labels,
  whenever every label is a class number.
-/
import proofs.«422978_j42253888258851_2_alg».proof.Proof.RefAfter
import proofs.«422978_j42253888258851_2_alg».proof.Proof.RefRow
import proofs.«422978_j42253888258851_2_alg».proof.Proof.Tail

noncomputable section

namespace Cert.RefValue

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo Idealize.ShloMosaic.ValueIdx

/-- The gathered log-probabilities are the vector of per-row log-probabilities. -/
theorem v19_eq_lp (x0 : (⟨S8192x32000, .f32⟩ : BufTy).Contents (Elt Ideal)) (x1 : (⟨S8192, .i32⟩ : BufTy).Contents (Elt Ideal))
    (hr : ∀ i, (x1 i).toNat < 32000) : val_main_v19 (F := Ideal) x0 x1 = Cert.Rows.lp x0 x1 hr := by
  funext i
  have hi : i = ix1 (⟨(i 0).val, (i 0).isLt⟩ : Fin 8192) := funext fun a => by match a with | ⟨0, _⟩ => rfl
  have h := Cert.RefRow.ref_row x0 x1 (⟨(i 0).val, (i 0).isLt⟩ : Fin 8192) (by rw [← hi]; exact hr i)
  unfold Cert.Rows.lp
  refine (congrArg (val_main_v19 (F := Ideal) x0 x1) hi).trans (h.trans ?_)
  exact Cert.Rows.logp_congr rfl (congrArg (fun j => (x1 j).toNat) hi.symm)

/-- After the reference's operations, from contents holding the logits `x0` and class-number labels `x1` in the
    argument buffers, the result buffer holds the loss function of the labels and of their per-row log-probabilities. -/
theorem result_eq (V : Valuation τ sig (Elt Ideal)) (x0 : (⟨S8192x32000, .f32⟩ : BufTy).Contents (Elt Ideal))
    (x1 : (⟨S8192, .i32⟩ : BufTy).Contents (Elt Ideal)) (h0 : V (Proc.devRef .tc main_arg0) = x0)
    (h1 : V (Proc.devRef .tc main_arg1) = x1) (hr : ∀ i, (x1 i).toNat < 32000) :
    after (ops (F := Ideal)) V (Proc.devRef .tc main_v30) = Cert.Loss.lossOf (F := Ideal) x1 (Cert.Rows.lp x0 x1 hr) := by
  rw [Cert.RefAfter.after_ops_v30, h0, h1, Cert.Loss.val_main_v30_eq_lossOf, v19_eq_lp x0 x1 hr]

end Cert.RefValue

end
-- ==== Proof.lean ====
/-
  The certificate: the Pallas kernel for the target-class log-probability inside a seesaw-weighted loss against its jnp
  reference, over the extended reals, for finite logits and labels that are class numbers (at least 0, below 32000).

  THE MATHEMATICS. Row `r` of the logits has largest entry `M`; the log-probability of its label `t` is
  `(x t - M) - log (∑ k, exp (x k - M))`. The kernel, block of 128 rows by block, reaches `x t - M` as the sum over the
  columns of the differences masked to the column whose number equals the label; the reference takes the row's
  log-softmax and gathers column `t`. A sum that vanishes off one index is its term there, so the two agree entry by
  entry (no finiteness is used). Everything else — counting the labels per class, the weights `(count + eps)^(-0.8)`
  normalised by their largest, the weight gathered at each label, the negated mean of weight times log-probability —
  is the same operations in the same order on both sides, carried as ONE function `lossOf labels logp` that is never
  opened. The kernel clamps its labels into `[0, 31999]` first; the reference wraps negative labels and masks labels
  out of range. On class numbers the clamp, the wrap and the mask all do nothing, which is where the precondition
  on the labels is used.

  The frames of the two kernel programs are the generated ones; the reference's frame is its run with the result
  dropped. The idealization rewrote nothing, so `preserves` is `True`.
-/
import proofs.«422978_j42253888258851_2_alg».proof.Defs
import proofs.«422978_j42253888258851_2_alg».proof.Proof.Gen.Kernel
import proofs.«422978_j42253888258851_2_alg».proof.Proof.Gen.Kernel.Frame
import proofs.«422978_j42253888258851_2_alg».proof.Proof.Gen.KernelIdeal
import proofs.«422978_j42253888258851_2_alg».proof.Proof.Gen.KernelIdeal.Frame
import proofs.«422978_j42253888258851_2_alg».proof.Proof.Gen.ReferenceIdeal
import proofs.«422978_j42253888258851_2_alg».proof.Proof.Gen.Pre_finite_inputs
import proofs.«422978_j42253888258851_2_alg».proof.Proof.RefRun
import proofs.«422978_j42253888258851_2_alg».proof.Proof.PreRange
import proofs.«422978_j42253888258851_2_alg».proof.Proof.KernelValue
import proofs.«422978_j42253888258851_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end at the loss function of the labels and of the per-row log-probabilities of the labels. -/
theorem algebraic : Cert.algebraic_KernelIdeal_ReferenceIdeal := by
  intro m ρ m' ρ' hpre hagree
  have hr : ∀ (c : Dev Cert.KernelIdeal.nD) i, (Cert.KernelPre.labels m c i).toNat < 32000 :=
    fun c i => Cert.PreRange.label_lt _ _ (hpre c) i
  refine ⟨_, Cert.KernelValue.run m ρ hr, ?_⟩
  refine (θ_run Cert.ReferenceIdeal.defs _ _).mono (fun _ h c => ⟨(h c).1.trans ?_, (h c).2⟩)
    (Cert.ReferenceIdeal.ValueP.run (F := Ideal) m' ρ')
  exact Cert.RefValue.result_eq _ _ _ (hagree c).1 (hagree c).2 (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
